-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x512 : Shape := ⟨2, ![1024, 512]⟩
abbrev S256x512 : Shape := ⟨2, ![256, 512]⟩
abbrev S_ : Shape := ⟨0, ![]⟩

class Facts : Prop where
  bcast_S_S1024x512 : S_.BroadcastsInDim S1024x512 (![] : Fin 0 → Fin S1024x512.rank)
  reducesTo_S1024x512_S_d0_1 : S1024x512.ReducesTo [0, 1] S_
  h_S_ : 0 < S_.numel
  bcast_S_S256x512 : S_.BroadcastsInDim S256x512 (![] : Fin 0 → Fin S256x512.rank)
  reducesTo_S256x512_S_d0_1 : S256x512.ReducesTo [0, 1] S_

variable [Facts]

def fn {F : FTy → Type} [FloatOps F] (main_arg0 : FVec F S1024x512 .f32) (main_arg1 : FVec F S1024x512 .f32) (main_arg2 : FVec F S256x512 .f32) : IVec S_ 1 :=
  let main_v0 : FVec F S1024x512 .f32 := Host.absf main_arg0
  let main_cst : FVec F S_ .f32 := constant S_ .f32 0x7F800000#32
  let main_v1 : FVec F S1024x512 .f32 := broadcastInDim S1024x512 ![] bcast_S_S1024x512 main_cst
  let main_v2 : IVec S1024x512 1 := cmpf .olt main_v0 main_v1
  let main_c : IVec S_ 1 := constantI S_ 1 1#1
  let main_v3 : IVec S_ 1 := (fun x v => Host.reduce IntOp.andi x v reducesTo_S1024x512_S_d0_1 h_S_) main_v2 main_c
  let main_v4 : FVec F S1024x512 .f32 := Host.absf main_arg1
  let main_cst_0 : FVec F S_ .f32 := constant S_ .f32 0x7F800000#32
  let main_v5 : FVec F S1024x512 .f32 := broadcastInDim S1024x512 ![] bcast_S_S1024x512 main_cst_0
  let main_v6 : IVec S1024x512 1 := cmpf .olt main_v4 main_v5
  let main_c_1 : IVec S_ 1 := constantI S_ 1 1#1
  let main_v7 : IVec S_ 1 := (fun x v => Host.reduce IntOp.andi x v reducesTo_S1024x512_S_d0_1 h_S_) main_v6 main_c_1
  let main_v8 : IVec S_ 1 := andi main_v3 main_v7
  let main_v9 : FVec F S256x512 .f32 := Host.absf main_arg2
  let main_cst_2 : FVec F S_ .f32 := constant S_ .f32 0x7F800000#32
  let main_v10 : FVec F S256x512 .f32 := broadcastInDim S256x512 ![] bcast_S_S256x512 main_cst_2
  let main_v11 : IVec S256x512 1 := cmpf .olt main_v9 main_v10
  let main_c_3 : IVec S_ 1 := constantI S_ 1 1#1
  let main_v12 : IVec S_ 1 := (fun x v => Host.reduce IntOp.andi x v reducesTo_S256x512_S_d0_1 h_S_) main_v11 main_c_3
  let main_v13 : IVec S_ 1 := andi main_v8 main_v12
  main_v13
-- ==== Kernel.lean ====
abbrev S1024x512 : Shape := ⟨2, ![1024, 512]⟩
abbrev S256x512 : Shape := ⟨2, ![256, 512]⟩
abbrev S1024x256 : Shape := ⟨2, ![1024, 256]⟩
abbrev S256x256 : Shape := ⟨2, ![256, 256]⟩
abbrev S1024x1024 : Shape := ⟨2, ![1024, 1024]⟩
abbrev S512x256 : Shape := ⟨2, ![512, 256]⟩
abbrev S512x512 : Shape := ⟨2, ![512, 512]⟩

abbrev nBuf : Space → Nat
  | .hbm => 6
  | .vmem => 16
  | .smem => 0
  | _ => 0

abbrev bufTy : (tb : Table) → Fin (tcTables nBuf tb) → BufTy
  | .hbm, ⟨0, _⟩ => ⟨S1024x512, .f32⟩
  | .hbm, ⟨1, _⟩ => ⟨S1024x512, .f32⟩
  | .hbm, ⟨2, _⟩ => ⟨S256x512, .f32⟩
  | .hbm, ⟨3, _⟩ => ⟨S1024x256, .bf16⟩
  | .hbm, ⟨4, _⟩ => ⟨S1024x256, .bf16⟩
  | .hbm, ⟨5, _⟩ => ⟨S1024x1024, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x256, .bf16⟩
  | .local _ .vmem, ⟨4, _⟩ => ⟨S256x256, .bf16⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x256, .bf16⟩
  | .local _ .vmem, ⟨9, _⟩ => ⟨S256x256, .bf16⟩
  | .local _ .vmem, ⟨10, _⟩ => ⟨S512x256, .bf16⟩
  | .local _ .vmem, ⟨11, _⟩ => ⟨S512x256, .bf16⟩
  | .local _ .vmem, ⟨12, _⟩ => ⟨S512x256, .bf16⟩
  | .local _ .vmem, ⟨13, _⟩ => ⟨S512x256, .bf16⟩
  | .local _ .vmem, ⟨14, _⟩ => ⟨S512x512, .f32⟩
  | .local _ .vmem, ⟨15, _⟩ => ⟨S512x512, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S256x256 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨2, ![2, 2], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S512x256 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S512x256 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S512x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

class Facts₀ : Prop where
  inb_S256x512_S256x512_0_0 : ∀ a, (![0, 0] : Fin 2 → Nat) a + S256x512.size a ≤ S256x512.size a
  h_S256x512 : 0 < S256x512.numel
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  packedbf16_S256x256_S256x256_0_0 : (Rect.unit (s := S256x256) ![0, 0] S256x256.size inb_S256x256_S256x256_0_0).PackedRows (EltTy.packing .bf16)
  natLt_1_32 : 1 < 32
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S512x512_S512x512_0_0 : ∀ a, (![0, 0] : Fin 2 → Nat) a + S512x512.size a ≤ S512x512.size a
  h_S512x512 : 0 < S512x512.numel
  dot_S256x512_S256x512_S256x256_1_1_0_0_n_n_wf : DotDims.WF S256x512 S256x512 S256x256 [1] [1] [0] [0] [] []
  dot_S512x256_S512x256_S512x512_1_1_0_0_n_n_wf : DotDims.WF S512x256 S512x256 S512x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x512.size a ≤ S1024x512.size a
  hwx0_0 : ∀ i : grid0.Coords, EltTy.bits .f32 = 32 ∨ (Rect.block (s := S1024x512) S256x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x512.size a ≤ S256x512.size a
  hwx0_1 : ∀ i : grid0.Coords, EltTy.bits .f32 = 32 ∨ (Rect.block (s := S256x512) S256x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S1024x256.size a
  hwx0_2 : ∀ i : grid0.Coords, EltTy.bits .bf16 = 32 ∨ (Rect.block (s := S1024x256) S256x256.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x512.size a ≤ S1024x512.size a
  hwx1_0 : ∀ i : grid1.Coords, EltTy.bits .f32 = 32 ∨ (Rect.block (s := S1024x512) S256x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x512.size a ≤ S256x512.size a
  hwx1_1 : ∀ i : grid1.Coords, EltTy.bits .f32 = 32 ∨ (Rect.block (s := S256x512) S256x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S1024x256.size a
  hwx1_2 : ∀ i : grid1.Coords, EltTy.bits .bf16 = 32 ∨ (Rect.block (s := S1024x256) S256x256.size (cc1_transform_2 i) (hinb1_2 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x256.size a ≤ S1024x256.size a
  hwx2_0 : ∀ i : grid2.Coords, EltTy.bits .bf16 = 32 ∨ (Rect.block (s := S1024x256) S512x256.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S512x256.size a ≤ S1024x256.size a
  hwx2_1 : ∀ i : grid2.Coords, EltTy.bits .bf16 = 32 ∨ (Rect.block (s := S1024x256) S512x256.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S512x512.size a ≤ S1024x1024.size a
  hwx2_2 : ∀ i : grid2.Coords, EltTy.bits .f32 = 32 ∨ (Rect.block (s := S1024x1024) S512x512.size (cc2_transform_2 i) (hinb2_2 i)).WholeWords (EltTy.packing .f32)

variable [Facts₀]

def dot_S256x512_S256x512_S256x256_1_1_0_0_n_n : DotDims S256x512 S256x512 S256x256 where
  lhsContracting := [1]
  rhsContracting := [1]
  lhsNonContracting := [0]
  rhsNonContracting := [0]
  lhsBatch := []
  rhsBatch := []
  wf := dot_S256x512_S256x512_S256x256_1_1_0_0_n_n_wf
def dot_S512x256_S512x256_S512x512_1_1_0_0_n_n : DotDims S512x256 S512x256 S512x512 where
  lhsContracting := [1]
  rhsContracting := [1]
  lhsNonContracting := [0]
  rhsNonContracting := [0]
  lhsBatch := []
  rhsBatch := []
  wf := dot_S512x256_S512x256_S512x512_1_1_0_0_n_n_wf

abbrev win0_0 : Pipeline.Window sig grid0 :=
  Pipeline.Window.ofSpec (Memref.whole main_arg0) S256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S256x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S256x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S256x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S256x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v0) S512x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v1) S512x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v2) S512x512.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S1024x512 : Shape := ⟨2, ![1024, 512]⟩
abbrev S256x512 : Shape := ⟨2, ![256, 512]⟩
abbrev S512x256 : Shape := ⟨2, ![512, 256]⟩
abbrev S1024x256 : Shape := ⟨2, ![1024, 256]⟩
abbrev S1024x1x256 : Shape := ⟨3, ![1024, 1, 256]⟩
abbrev S1x1024x256 : Shape := ⟨3, ![1, 1024, 256]⟩
abbrev S_ : Shape := ⟨0, ![]⟩
abbrev S1024x1024x256 : Shape := ⟨3, ![1024, 1024, 256]⟩
abbrev S1024x1024 : Shape := ⟨2, ![1024, 1024]⟩

abbrev nBuf : Space → Nat
  | .hbm => 23
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S1024x512, .f32⟩
  | .hbm, ⟨2, _⟩ => ⟨S256x512, .f32⟩
  | .hbm, ⟨3, _⟩ => ⟨S512x256, .f32⟩
  | .hbm, ⟨4, _⟩ => ⟨S1024x256, .f32⟩
  | .hbm, ⟨5, _⟩ => ⟨S512x256, .f32⟩
  | .hbm, ⟨6, _⟩ => ⟨S1024x256, .f32⟩
  | .hbm, ⟨7, _⟩ => ⟨S1024x1x256, .f32⟩
  | .hbm, ⟨8, _⟩ => ⟨S1x1024x256, .f32⟩
  | .hbm, ⟨9, _⟩ => ⟨S_, .f32⟩
  | .hbm, ⟨10, _⟩ => ⟨S1024x1x256, .f32⟩
  | .hbm, ⟨11, _⟩ => ⟨S1024x1x256, .i1⟩
  | .hbm, ⟨12, _⟩ => ⟨S_, .f32⟩
  | .hbm, ⟨13, _⟩ => ⟨S1x1024x256, .f32⟩
  | .hbm, ⟨14, _⟩ => ⟨S1x1024x256, .i1⟩
  | .hbm, ⟨15, _⟩ => ⟨S1024x1024x256, .i1⟩
  | .hbm, ⟨16, _⟩ => ⟨S1024x1024x256, .i1⟩
  | .hbm, ⟨17, _⟩ => ⟨S1024x1024x256, .i1⟩
  | .hbm, ⟨18, _⟩ => ⟨S1024x1024x256, .f32⟩
  | .hbm, ⟨19, _⟩ => ⟨S1024x1024x256, .f32⟩
  | .hbm, ⟨20, _⟩ => ⟨S1024x1024x256, .f32⟩
  | .hbm, ⟨21, _⟩ => ⟨S_, .f32⟩
  | .hbm, ⟨22, _⟩ => ⟨S1024x1024, .f32⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_1 : Ref sig .tc := ⟨.hbm, 21, rfl⟩
abbrev main_v16 : Ref sig .tc := ⟨.hbm, 22, rfl⟩

abbrev nD : Nat := 1
abbrev τ : Topo := Topo.v7x

variable {F : FTy → Type} [FloatOps F]

class Facts₀ : Prop where
  transposes_S256x512_S512x256_1_0 : S256x512.Transposes [1, 0] S512x256
  bcast_S1024x256_S1024x1x256_0_2 : S1024x256.BroadcastsInDim S1024x1x256 (![0, 2] : Fin 2 → Fin S1024x1x256.rank)
  bcast_S1024x256_S1x1024x256_1_2 : S1024x256.BroadcastsInDim S1x1024x256 (![1, 2] : Fin 2 → Fin S1x1024x256.rank)
  bcast_S_S1024x1x256 : S_.BroadcastsInDim S1024x1x256 (![] : Fin 0 → Fin S1024x1x256.rank)
  bcast_S_S1x1024x256 : S_.BroadcastsInDim S1x1024x256 (![] : Fin 0 → Fin S1x1024x256.rank)
  bcast_S1024x1x256_S1024x1024x256_0_1_2 : S1024x1x256.BroadcastsInDim S1024x1024x256 (![0, 1, 2] : Fin 3 → Fin S1024x1024x256.rank)
  bcast_S1x1024x256_S1024x1024x256_0_1_2 : S1x1024x256.BroadcastsInDim S1024x1024x256 (![0, 1, 2] : Fin 3 → Fin S1024x1024x256.rank)
  reducesTo_S1024x1024x256_S1024x1024_d2 : S1024x1024x256.ReducesTo [2] S1024x1024
  h_S_ : 0 < S_.numel
  dot_S1024x512_S512x256_S1024x256_1_0_0_1_n_n_wf : DotDims.WF S1024x512 S512x256 S1024x256 [1] [0] [0] [1] [] []

variable [Facts₀]

def dot_S1024x512_S512x256_S1024x256_1_0_0_1_n_n : DotDims S1024x512 S512x256 S1024x256 where
  lhsContracting := [1]
  rhsContracting := [0]
  lhsNonContracting := [0]
  rhsNonContracting := [1]
  lhsBatch := []
  rhsBatch := []
  wf := dot_S1024x512_S512x256_S1024x256_1_0_0_1_n_n_wf

class Facts : Prop extends Facts₀ where

variable [Facts]
-- ==== Proof.Payload.lean ====
/-
  The three kernel bodies' stored values, read at one entry, over the extended reals (where a change of float
  format is the identity and a matrix product into the zero splat is the plain sum over the contracted axis).
  Each body contracts the SECOND axis of both operands, so entry (p, q) of a product pairs row p of the left
  operand with row q of the right one.
    body 0 :  max (Σ_d x[p,d] · f[q,d]) 0            — the positive part of a projection onto the feature bank
    body 1 :  1 if Σ_d x[p,d] · f[q,d] ≤ 0, else 0   — the indicator of a non-positive projection, the compare's bit
              widened to 32 bits and converted as a signed integer
    body 2 :  Σ_k u[p,k] · v[q,k]
-/
import proofs.«118252_j78941498900584_1_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Payload

open Idealize.ShloMosaic Idealize.ShloMosaic.ValueIdx Cert.KernelIdeal Cert.KernelIdeal.Gen

/-! ## The two contractions' operand indices, axis by axis -/

theorem projL_0 (i : S256x256.Idx) (q : dot_S256x512_S256x512_S256x256_1_1_0_0_n_n.contr.Idx) :
    (dot_S256x512_S256x512_S256x256_1_1_0_0_n_n.lhsIdx i q 0).val = (i 0).val := by
  unfold DotDims.lhsIdx
  rw [dif_neg (show ¬(0 : Fin S256x512.rank) ∈ dot_S256x512_S256x512_S256x256_1_1_0_0_n_n.lhsBatch by decide), dif_pos (show (0 : Fin S256x512.rank) ∈ dot_S256x512_S256x512_S256x256_1_1_0_0_n_n.lhsNonContracting by decide)]
  rfl
theorem projL_1 (i : S256x256.Idx) (q : dot_S256x512_S256x512_S256x256_1_1_0_0_n_n.contr.Idx) :
    (dot_S256x512_S256x512_S256x256_1_1_0_0_n_n.lhsIdx i q 1).val = (q ⟨0, by decide⟩).val :=
  dot_S256x512_S256x512_S256x256_1_1_0_0_n_n.lhsIdx_val_of_single rfl i q
theorem projR_0 (i : S256x256.Idx) (q : dot_S256x512_S256x512_S256x256_1_1_0_0_n_n.contr.Idx) :
    (dot_S256x512_S256x512_S256x256_1_1_0_0_n_n.rhsIdx i q 0).val = (i 1).val := by
  unfold DotDims.rhsIdx
  rw [dif_neg (show ¬(0 : Fin S256x512.rank) ∈ dot_S256x512_S256x512_S256x256_1_1_0_0_n_n.rhsBatch by decide), dif_pos (show (0 : Fin S256x512.rank) ∈ dot_S256x512_S256x512_S256x256_1_1_0_0_n_n.rhsNonContracting by decide)]
  rfl
theorem projR_1 (i : S256x256.Idx) (q : dot_S256x512_S256x512_S256x256_1_1_0_0_n_n.contr.Idx) :
    (dot_S256x512_S256x512_S256x256_1_1_0_0_n_n.rhsIdx i q 1).val = (q ⟨0, by decide⟩).val :=
  dot_S256x512_S256x512_S256x256_1_1_0_0_n_n.rhsIdx_val_of_single rfl i q

theorem pairL_0 (i : S512x512.Idx) (q : dot_S512x256_S512x256_S512x512_1_1_0_0_n_n.contr.Idx) :
    (dot_S512x256_S512x256_S512x512_1_1_0_0_n_n.lhsIdx i q 0).val = (i 0).val := by
  unfold DotDims.lhsIdx
  rw [dif_neg (show ¬(0 : Fin S512x256.rank) ∈ dot_S512x256_S512x256_S512x512_1_1_0_0_n_n.lhsBatch by decide), dif_pos (show (0 : Fin S512x256.rank) ∈ dot_S512x256_S512x256_S512x512_1_1_0_0_n_n.lhsNonContracting by decide)]
  rfl
theorem pairL_1 (i : S512x512.Idx) (q : dot_S512x256_S512x256_S512x512_1_1_0_0_n_n.contr.Idx) :
    (dot_S512x256_S512x256_S512x512_1_1_0_0_n_n.lhsIdx i q 1).val = (q ⟨0, by decide⟩).val :=
  dot_S512x256_S512x256_S512x512_1_1_0_0_n_n.lhsIdx_val_of_single rfl i q
theorem pairR_0 (i : S512x512.Idx) (q : dot_S512x256_S512x256_S512x512_1_1_0_0_n_n.contr.Idx) :
    (dot_S512x256_S512x256_S512x512_1_1_0_0_n_n.rhsIdx i q 0).val = (i 1).val := by
  unfold DotDims.rhsIdx
  rw [dif_neg (show ¬(0 : Fin S512x256.rank) ∈ dot_S512x256_S512x256_S512x512_1_1_0_0_n_n.rhsBatch by decide), dif_pos (show (0 : Fin S512x256.rank) ∈ dot_S512x256_S512x256_S512x512_1_1_0_0_n_n.rhsNonContracting by decide)]
  rfl
theorem pairR_1 (i : S512x512.Idx) (q : dot_S512x256_S512x256_S512x512_1_1_0_0_n_n.contr.Idx) :
    (dot_S512x256_S512x256_S512x512_1_1_0_0_n_n.rhsIdx i q 1).val = (q ⟨0, by decide⟩).val :=
  dot_S512x256_S512x256_S512x512_1_1_0_0_n_n.rhsIdx_val_of_single rfl i q

/-! ## The two products at an entry: the sum over the shared second axis -/

theorem proj_matmul_apply (x y : FVec Ideal S256x512 .bf16) (p q : Fin 256) :
    matmul dot_S256x512_S256x512_S256x256_1_1_0_0_n_n none x y (constant S256x256 .f32 0x00000000#32) (ix2 p q)
      = ∑ d : Fin 512, x (ix2 p d) * y (ix2 q d) := by
  simp only [matmul]
  rw [Ideal.matmul_constant_zero_apply, ← Equiv.sum_comp (contrEquiv1 dot_S256x512_S256x512_S256x256_1_1_0_0_n_n 512 rfl rfl).symm]
  refine Finset.sum_congr rfl fun k _ => ?_
  have hk := contrEquiv1_symm_val dot_S256x512_S256x512_S256x256_1_1_0_0_n_n 512 rfl rfl k
  have el : dot_S256x512_S256x512_S256x256_1_1_0_0_n_n.lhsIdx (ix2 p q) ((contrEquiv1 dot_S256x512_S256x512_S256x256_1_1_0_0_n_n 512 rfl rfl).symm k) = ix2 p k := funext fun a => Fin.ext (by
    match a with
    | ⟨0, _⟩ => exact projL_0 _ _
    | ⟨1, _⟩ => exact (projL_1 _ _).trans hk)
  have er : dot_S256x512_S256x512_S256x256_1_1_0_0_n_n.rhsIdx (ix2 p q) ((contrEquiv1 dot_S256x512_S256x512_S256x256_1_1_0_0_n_n 512 rfl rfl).symm k) = ix2 q k := funext fun a => Fin.ext (by
    match a with
    | ⟨0, _⟩ => exact projR_0 _ _
    | ⟨1, _⟩ => exact (projR_1 _ _).trans hk)
  rw [el, er]

theorem pair_matmul_apply (x y : FVec Ideal S512x256 .bf16) (p q : Fin 512) :
    matmul dot_S512x256_S512x256_S512x512_1_1_0_0_n_n none x y (constant S512x512 .f32 0x00000000#32) (ix2 p q)
      = ∑ d : Fin 256, x (ix2 p d) * y (ix2 q d) := by
  simp only [matmul]
  rw [Ideal.matmul_constant_zero_apply, ← Equiv.sum_comp (contrEquiv1 dot_S512x256_S512x256_S512x512_1_1_0_0_n_n 256 rfl rfl).symm]
  refine Finset.sum_congr rfl fun k _ => ?_
  have hk := contrEquiv1_symm_val dot_S512x256_S512x256_S512x512_1_1_0_0_n_n 256 rfl rfl k
  have el : dot_S512x256_S512x256_S512x512_1_1_0_0_n_n.lhsIdx (ix2 p q) ((contrEquiv1 dot_S512x256_S512x256_S512x512_1_1_0_0_n_n 256 rfl rfl).symm k) = ix2 p k := funext fun a => Fin.ext (by
    match a with
    | ⟨0, _⟩ => exact pairL_0 _ _
    | ⟨1, _⟩ => exact (pairL_1 _ _).trans hk)
  have er : dot_S512x256_S512x256_S512x512_1_1_0_0_n_n.rhsIdx (ix2 p q) ((contrEquiv1 dot_S512x256_S512x256_S512x512_1_1_0_0_n_n 256 rfl rfl).symm k) = ix2 q k := funext fun a => Fin.ext (by
    match a with
    | ⟨0, _⟩ => exact pairR_0 _ _
    | ⟨1, _⟩ => exact (pairR_1 _ _).trans hk)
  rw [el, er]

/-! ## The stored values -/

/-- The bit of a comparison, widened to 32 bits and read as a signed integer, is the real 1 or 0. -/
theorem bit_to_real (b : BitVec 1) :
    (((b.setWidth 32).toInt : ℝ) : EReal) = if b = 1#1 then 1 else 0 := by
  rcases BitVec.eq_zero_or_eq_one b with h | h <;> subst h <;> simp

/-- Body 0 stores the positive part of the projection of its row block onto the bank. -/
theorem pos_apply (x f : Vec Ideal S256x512 .f32) (p q : Fin 256) :
    k0_pay1 (F := Ideal) x f (ix2 p q) = max (∑ d : Fin 512, x (ix2 p d) * f (ix2 q d)) 0 := by
  unfold k0_pay1
  rw [truncf_apply, maximumf_apply, proj_matmul_apply]
  simp only [truncf_apply, broadcast_apply]
  exact congrArg (max _) Ideal.ofBits_zero_f32

/-- Body 1 stores the indicator of a non-positive projection. -/
theorem nonpos_apply (x f : Vec Ideal S256x512 .f32) (p q : Fin 256) :
    k1_pay1 (F := Ideal) x f (ix2 p q) = if (∑ d : Fin 512, x (ix2 p d) * f (ix2 q d)) ≤ 0 then 1 else 0 := by
  unfold k1_pay1
  rw [truncf_apply, sitofp_apply, extui_apply, cmpf_apply, proj_matmul_apply]
  simp only [truncf_apply, broadcast_apply]
  refine (bit_to_real _).trans ?_
  show (if Ideal.cmp .ole (∑ d : Fin 512, x (ix2 p d) * f (ix2 q d)) (Ideal.ofBits .f32 0x00000000#32) = 1#1 then (1 : EReal) else 0) = _
  rw [Ideal.ofBits_zero_f32]
  unfold Ideal.cmp
  by_cases h : (∑ d : Fin 512, x (ix2 p d) * f (ix2 q d)) ≤ 0 <;> simp [h]

/-- Body 2 stores the product of its two blocks. -/
theorem pair_apply (u v : Vec Ideal S512x256 .bf16) (p q : Fin 512) :
    k2_pay1 (F := Ideal) u v (ix2 p q) = ∑ k : Fin 256, u (ix2 p k) * v (ix2 q k) := by
  unfold k2_pay1
  rw [shapeCast_self, shapeCast_self]
  exact pair_matmul_apply _ _ p q

end Cert.KernelIdeal.Payload

end
-- ==== Proof.Spec.lean ====
/-
  What both programs compute, as functions of the three argument arrays over the extended reals.

  With  s(x)[r, k] = Σ_d x[r, d] · f[k, d]  the projection of row r of x onto feature k of the bank f, the result is

      out[i, j] = Σ_k  max (s(a)[i, k]) 0  ·  [ s(b)[j, k] ≤ 0 ]

  — the features present in row i of a (a positive projection) and absent from row j of b (a non-positive one),
  summed with a's projection as the weight. The reference writes the summand as  s(a)[i,k] · [ s(a)[i,k] > 0 ∧ s(b)[j,k] ≤ 0 ];
  the two summands agree at every extended real (`weight_eq`): where the projection is positive its positive part
  is itself, and elsewhere both products are a product with zero.
-/
import Idealize.ShloMosaic.PureOps.Ideal
import Idealize.ShloMosaic.Lib.ValueIdx

noncomputable section

namespace Cert.FeatureDiff

open Idealize.ShloMosaic Idealize.ShloMosaic.ValueIdx

/-- The two row arrays `a`, `b`; the feature bank; a projection; the result. -/
abbrev SRows : Shape := ⟨2, ![1024, 512]⟩
abbrev SBank : Shape := ⟨2, ![256, 512]⟩
abbrev SProj : Shape := ⟨2, ![1024, 256]⟩
abbrev SOut : Shape := ⟨2, ![1024, 1024]⟩

/-- The projection of row `r` of `x` onto feature `k` of the bank. -/
def score (x : SRows.Idx → EReal) (f : SBank.Idx → EReal) (r : Fin 1024) (k : Fin 256) : EReal :=
  ∑ d : Fin 512, x (ix2 r d) * f (ix2 k d)

/-- The positive parts of all projections. -/
def posScores (x : SRows.Idx → EReal) (f : SBank.Idx → EReal) : SProj.Idx → EReal :=
  fun i => max (score x f ⟨(i 0).val, idx2_lt0 i⟩ ⟨(i 1).val, idx2_lt1 i⟩) 0

/-- The indicator of the non-positive projections. -/
def nonposMask (x : SRows.Idx → EReal) (f : SBank.Idx → EReal) : SProj.Idx → EReal :=
  fun i => if score x f ⟨(i 0).val, idx2_lt0 i⟩ ⟨(i 1).val, idx2_lt1 i⟩ ≤ 0 then 1 else 0

/-- Row `i` of `u` against row `j` of `v`, summed over the features. -/
def pairSum (u v : SProj.Idx → EReal) : SOut.Idx → EReal :=
  fun i => ∑ k : Fin 256, u (ix2 ⟨(i 0).val, idx2_lt0 i⟩ k) * v (ix2 ⟨(i 1).val, idx2_lt1 i⟩ k)

/-- The result. -/
def result (a b : SRows.Idx → EReal) (f : SBank.Idx → EReal) : SOut.Idx → EReal :=
  pairSum (posScores a f) (nonposMask b f)

/-- The reference's weight `s · [s > 0 ∧ t ≤ 0]` (the conjunction of the two compare bits read as an unsigned
    integer) is the kernel's `max s 0 · [t ≤ 0]`, at every pair of extended reals. -/
theorem weight_eq (s t : EReal) :
    s * (((IntOp.andi (Ideal.cmp .ogt s 0) (Ideal.cmp .ole t 0)).toNat : ℝ) : EReal)
      = max s 0 * (if t ≤ 0 then 1 else 0) := by
  unfold Ideal.cmp IntOp.andi
  by_cases hs : 0 < s
  · by_cases ht : t ≤ 0
    · simp [hs, ht, max_eq_left hs.le]
    · simp [hs, ht]
  · simp [hs, max_eq_right (not_lt.mp hs)]

end Cert.FeatureDiff

end
-- ==== Proof.Region0.lean ====
/-
  Region 0 of the kernel's program (the pipelined projection of the rows of `a` onto the bank, positive parts kept), read as a
  value: whatever the TensorCore's buffers hold when the region is entered (`V`), the output array ends holding
  the positive parts of the projections of the first operand's array onto the second's.

  A grid point t works on rows 256·t … 256·t + 255 of the row array and on the whole bank, and writes back the
  same rows of the output; entry (p, q) of what it writes is the positive part of row 256·t + p against feature q.
  So each written block is the block of ONE whole-array function, and the four blocks tile the output.
-/
import proofs.«118252_j78941498900584_1_alg».proof.Proof.Gen.KernelIdeal.Frame
import proofs.«118252_j78941498900584_1_alg».proof.Proof.Payload
import proofs.«118252_j78941498900584_1_alg».proof.Proof.Spec
import Idealize.ShloMosaic.Lib.Pipeline.Value

set_option maxRecDepth 16384

noncomputable section

namespace Cert.KernelIdeal.Region0

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.FeatureDiff

variable (V : (c : Dev nD) → (b : Ref sig .tc) → Buf (Elt Ideal) ((c : Thread nD τ).loc b))

theorem origin : (![0, 0] : Fin 2 → Nat) = fun _ => 0 := funext fun a => by fin_cases a <;> rfl

/-- The three index maps over the grid: the row window and the output window sit at the same row block, the bank
    window at the origin, and no window moves along the second axis. -/
theorem block_indices : ∀ t : Fin cfg0.N,
    win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 3 :=
  (by decide +kernel : ∀ t : Fin grid0.N, _)

/-- Every row block of the output is some point's. -/
theorem block_onto : ∀ (r : Fin 4), ∃ t : Fin cfg0.N, win0_2.index t = ![r.val, 0] :=
  (by decide +kernel : ∀ (r : Fin 4), ∃ t : Fin grid0.N, win0_2.index t = ![r.val, 0])

/-- A block of rows against the bank, stored by the body, is the spec's function at the array index `i` whose row the
    block's row `p` is and whose feature is `q`. -/
theorem block_entry (A : SRows.Idx → EReal) (B : SBank.Idx → EReal) (x f : Vec Ideal S256x512 .f32)
    (i : SProj.Idx) (p q : Fin 256)
    (hx : ∀ d : Fin 512, x (ix2 p d) = A (ix2 ⟨(i 0).val, idx2_lt0 i⟩ d))
    (hf : ∀ d : Fin 512, f (ix2 q d) = B (ix2 ⟨(i 1).val, idx2_lt1 i⟩ d)) :
    k0_pay1 (F := Ideal) x f (ix2 p q) = posScores A B i := by
  have hs : (∑ d : Fin 512, x (ix2 p d) * f (ix2 q d))
      = ∑ d : Fin 512, A (ix2 ⟨(i 0).val, idx2_lt0 i⟩ d) * B (ix2 ⟨(i 1).val, idx2_lt1 i⟩ d) :=
    Finset.sum_congr rfl fun d _ => by rw [hx d, hf d]
  rw [Payload.pos_apply, hs]
  rfl

/-- What point `t` writes back is block `t` of the spec's function of the arrays as the region finds them. -/
theorem flushed_eq (c : Dev nD) (t : Fin cfg0.N) :
    (dat0 V c).flushed 2 t
      = ((cfg0.win 2).blk t).view.read (Elt Ideal) (posScores (V c main_arg0) (V c main_arg2)) := by
  show (cfg0.win 2).cut (grid0.coords t) ((dat0 V c).after 2 t) = _
  rw [after0_2]
  unfold out0_2
  rw [View.canon_unit_zero origin]
  simp only [View.ld_unit_zero (S := S256x512) origin]
  obtain ⟨e0, e1, e2, e3, e4, e5⟩ := block_indices t
  funext j
  obtain ⟨p, q, rfl⟩ : ∃ (p : Fin 256) (q : Fin 256), j = ix2 p q := ⟨j 0, j 1, eq_ix2 j⟩
  refine block_entry (V c main_arg0) (V c main_arg2) (iblk0 V c 0 t) (iblk0 V c 1 t)
    (((cfg0.win 2).blk t).view.emb (ix2 p q)) p q (fun d => ?_) (fun d => ?_)
  · show V c main_arg0 (((cfg0.win 0).blk t).view.emb (ix2 p d)) = V c main_arg0 _
    refine congrArg (V c main_arg0) (funext fun a => Fin.ext ?_)
    match a with
    | ⟨0, _⟩ => show win0_0.index t (0 : Fin 2) * 256 + 1 * p.val = win0_2.index t (0 : Fin 2) * 256 + 1 * p.val; omega
    | ⟨1, _⟩ => show win0_0.index t (1 : Fin 2) * 512 + 1 * d.val = d.val; omega
  · show V c main_arg2 (((cfg0.win 1).blk t).view.emb (ix2 q d)) = V c main_arg2 _
    refine congrArg (V c main_arg2) (funext fun a => Fin.ext ?_)
    match a with
    | ⟨0, _⟩ => show win0_1.index t (0 : Fin 2) * 256 + 1 * q.val = win0_2.index t (1 : Fin 2) * 256 + 1 * q.val; omega
    | ⟨1, _⟩ => show win0_1.index t (1 : Fin 2) * 512 + 1 * d.val = d.val; omega

/-- An index of the output array is in point `t`'s block iff each coordinate is in the block's range on its axis. -/
theorem mem_block (t : Fin cfg0.N) (i : S1024x256.Idx) :
    i ∈ ((cfg0.win 2).blk t).view.set ↔ ∀ a : Fin 2, win0_2.index t a * S256x256.size a ≤ (i a).val ∧ (i a).val < win0_2.index t a * S256x256.size a + S256x256.size a := by
  show i ∈ ((View.whole main_v0).slice (win0_2.rect t)).set ↔ _
  rw [View.set_slice_whole, Rect.mem_set_unit]
  exact Iff.rfl

/-- The blocks tile the output: row r lies in the block of the point at row block r / 256. -/
theorem covered (i : S1024x256.Idx) :
    ∃ t : Fin cfg0.N, (cfg0.win 2).flush t = true ∧ i ∈ ((cfg0.win 2).blk t).view.set := by
  have hi0 : (i 0).val < 1024 := (i 0).isLt
  have hi1 : (i 1).val < 256 := (i 1).isLt
  obtain ⟨t, ht⟩ := block_onto ⟨(i 0).val / 256, by omega⟩
  have q0 : win0_2.index t (0 : Fin 2) = (i 0).val / 256 := congrFun ht 0
  have q1 : win0_2.index t (1 : Fin 2) = 0 := congrFun ht 1
  refine ⟨t, flush0_2 t, ?_⟩
  rw [mem_block]
  intro a
  match a with
  | ⟨0, _⟩ => show win0_2.index t (0 : Fin 2) * 256 ≤ (i 0).val ∧ (i 0).val < win0_2.index t (0 : Fin 2) * 256 + 256; omega
  | ⟨1, _⟩ => show win0_2.index t (1 : Fin 2) * 256 ≤ (i 1).val ∧ (i 1).val < win0_2.index t (1 : Fin 2) * 256 + 256; omega

/-- The output array after the region. -/
theorem final (c : Dev nD) : (dat0 V c).arrAt 2 cfg0.N = posScores (V c main_arg0) (V c main_arg2) :=
  (dat0 V c).arrAt_eq_of_cover 2 _ (fun t _ => flushed_eq V c t) covered

end Cert.KernelIdeal.Region0

end
-- ==== Proof.Region1.lean ====
/-
  Region 1 of the kernel's program (the pipelined projection of the rows of `b` onto the bank, non-positive entries marked), read as a
  value: whatever the TensorCore's buffers hold when the region is entered (`V`), the output array ends holding
  the indicator of the non-positive projections of the first operand's array onto the second's.

  A grid point t works on rows 256·t … 256·t + 255 of the row array and on the whole bank, and writes back the
  same rows of the output; entry (p, q) of what it writes is the indicator of a non-positive projection of row 256·t + p against feature q.
  So each written block is the block of ONE whole-array function, and the four blocks tile the output.
-/
import proofs.«118252_j78941498900584_1_alg».proof.Proof.Gen.KernelIdeal.Frame
import proofs.«118252_j78941498900584_1_alg».proof.Proof.Payload
import proofs.«118252_j78941498900584_1_alg».proof.Proof.Spec
import Idealize.ShloMosaic.Lib.Pipeline.Value

set_option maxRecDepth 16384

noncomputable section

namespace Cert.KernelIdeal.Region1

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.FeatureDiff

variable (V : (c : Dev nD) → (b : Ref sig .tc) → Buf (Elt Ideal) ((c : Thread nD τ).loc b))

theorem origin : (![0, 0] : Fin 2 → Nat) = fun _ => 0 := funext fun a => by fin_cases a <;> rfl

/-- The three index maps over the grid: the row window and the output window sit at the same row block, the bank
    window at the origin, and no window moves along the second axis. -/
theorem block_indices : ∀ t : Fin cfg1.N,
    win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (1 : Fin 2) = 0
    ∧ win1_2.index t (0 : Fin 2) ≤ 3 :=
  (by decide +kernel : ∀ t : Fin grid1.N, _)

/-- Every row block of the output is some point's. -/
theorem block_onto : ∀ (r : Fin 4), ∃ t : Fin cfg1.N, win1_2.index t = ![r.val, 0] :=
  (by decide +kernel : ∀ (r : Fin 4), ∃ t : Fin grid1.N, win1_2.index t = ![r.val, 0])

/-- A block of rows against the bank, stored by the body, is the spec's function at the array index `i` whose row the
    block's row `p` is and whose feature is `q`. -/
theorem block_entry (A : SRows.Idx → EReal) (B : SBank.Idx → EReal) (x f : Vec Ideal S256x512 .f32)
    (i : SProj.Idx) (p q : Fin 256)
    (hx : ∀ d : Fin 512, x (ix2 p d) = A (ix2 ⟨(i 0).val, idx2_lt0 i⟩ d))
    (hf : ∀ d : Fin 512, f (ix2 q d) = B (ix2 ⟨(i 1).val, idx2_lt1 i⟩ d)) :
    k1_pay1 (F := Ideal) x f (ix2 p q) = nonposMask A B i := by
  have hs : (∑ d : Fin 512, x (ix2 p d) * f (ix2 q d))
      = ∑ d : Fin 512, A (ix2 ⟨(i 0).val, idx2_lt0 i⟩ d) * B (ix2 ⟨(i 1).val, idx2_lt1 i⟩ d) :=
    Finset.sum_congr rfl fun d _ => by rw [hx d, hf d]
  rw [Payload.nonpos_apply, hs]
  rfl

/-- What point `t` writes back is block `t` of the spec's function of the arrays as the region finds them. -/
theorem flushed_eq (c : Dev nD) (t : Fin cfg1.N) :
    (dat1 V c).flushed 2 t
      = ((cfg1.win 2).blk t).view.read (Elt Ideal) (nonposMask (V c main_arg1) (V c main_arg2)) := by
  show (cfg1.win 2).cut (grid1.coords t) ((dat1 V c).after 2 t) = _
  rw [after1_2]
  unfold out1_2
  rw [View.canon_unit_zero origin]
  simp only [View.ld_unit_zero (S := S256x512) origin]
  obtain ⟨e0, e1, e2, e3, e4, e5⟩ := block_indices t
  funext j
  obtain ⟨p, q, rfl⟩ : ∃ (p : Fin 256) (q : Fin 256), j = ix2 p q := ⟨j 0, j 1, eq_ix2 j⟩
  refine block_entry (V c main_arg1) (V c main_arg2) (iblk1 V c 0 t) (iblk1 V c 1 t)
    (((cfg1.win 2).blk t).view.emb (ix2 p q)) p q (fun d => ?_) (fun d => ?_)
  · show V c main_arg1 (((cfg1.win 0).blk t).view.emb (ix2 p d)) = V c main_arg1 _
    refine congrArg (V c main_arg1) (funext fun a => Fin.ext ?_)
    match a with
    | ⟨0, _⟩ => show win1_0.index t (0 : Fin 2) * 256 + 1 * p.val = win1_2.index t (0 : Fin 2) * 256 + 1 * p.val; omega
    | ⟨1, _⟩ => show win1_0.index t (1 : Fin 2) * 512 + 1 * d.val = d.val; omega
  · show V c main_arg2 (((cfg1.win 1).blk t).view.emb (ix2 q d)) = V c main_arg2 _
    refine congrArg (V c main_arg2) (funext fun a => Fin.ext ?_)
    match a with
    | ⟨0, _⟩ => show win1_1.index t (0 : Fin 2) * 256 + 1 * q.val = win1_2.index t (1 : Fin 2) * 256 + 1 * q.val; omega
    | ⟨1, _⟩ => show win1_1.index t (1 : Fin 2) * 512 + 1 * d.val = d.val; omega

/-- An index of the output array is in point `t`'s block iff each coordinate is in the block's range on its axis. -/
theorem mem_block (t : Fin cfg1.N) (i : S1024x256.Idx) :
    i ∈ ((cfg1.win 2).blk t).view.set ↔ ∀ a : Fin 2, win1_2.index t a * S256x256.size a ≤ (i a).val ∧ (i a).val < win1_2.index t a * S256x256.size a + S256x256.size a := by
  show i ∈ ((View.whole main_v1).slice (win1_2.rect t)).set ↔ _
  rw [View.set_slice_whole, Rect.mem_set_unit]
  exact Iff.rfl

/-- The blocks tile the output: row r lies in the block of the point at row block r / 256. -/
theorem covered (i : S1024x256.Idx) :
    ∃ t : Fin cfg1.N, (cfg1.win 2).flush t = true ∧ i ∈ ((cfg1.win 2).blk t).view.set := by
  have hi0 : (i 0).val < 1024 := (i 0).isLt
  have hi1 : (i 1).val < 256 := (i 1).isLt
  obtain ⟨t, ht⟩ := block_onto ⟨(i 0).val / 256, by omega⟩
  have q0 : win1_2.index t (0 : Fin 2) = (i 0).val / 256 := congrFun ht 0
  have q1 : win1_2.index t (1 : Fin 2) = 0 := congrFun ht 1
  refine ⟨t, flush1_2 t, ?_⟩
  rw [mem_block]
  intro a
  match a with
  | ⟨0, _⟩ => show win1_2.index t (0 : Fin 2) * 256 ≤ (i 0).val ∧ (i 0).val < win1_2.index t (0 : Fin 2) * 256 + 256; omega
  | ⟨1, _⟩ => show win1_2.index t (1 : Fin 2) * 256 ≤ (i 1).val ∧ (i 1).val < win1_2.index t (1 : Fin 2) * 256 + 256; omega

/-- The output array after the region. -/
theorem final (c : Dev nD) : (dat1 V c).arrAt 2 cfg1.N = nonposMask (V c main_arg1) (V c main_arg2) :=
  (dat1 V c).arrAt_eq_of_cover 2 _ (fun t _ => flushed_eq V c t) covered

end Cert.KernelIdeal.Region1

end
-- ==== Proof.Region2.lean ====
/-
  Region 2 of the kernel's program (the pipelined product of the two projected arrays), read as a value: whatever the
  TensorCore's buffers hold when the region is entered (`V`), the output array ends holding, at (i, j), the sum over the
  256 features of row i of the first operand's array times row j of the second's.

  The grid is 2 × 2. Point (s, t) works on rows 512·s … of the first array and rows 512·t … of the second, and writes
  back the 512 × 512 block (s, t) of the output; entry (p, q) of what it writes pairs row 512·s + p with row 512·t + q.
  So each written block is the block of ONE whole-array function, and the four blocks tile the output.
-/
import proofs.«118252_j78941498900584_1_alg».proof.Proof.Gen.KernelIdeal.Frame
import proofs.«118252_j78941498900584_1_alg».proof.Proof.Payload
import proofs.«118252_j78941498900584_1_alg».proof.Proof.Spec
import Idealize.ShloMosaic.Lib.Pipeline.Value

set_option maxRecDepth 16384

noncomputable section

namespace Cert.KernelIdeal.Region2

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.FeatureDiff

variable (V : (c : Dev nD) → (b : Ref sig .tc) → Buf (Elt Ideal) ((c : Thread nD τ).loc b))

theorem origin : (![0, 0] : Fin 2 → Nat) = fun _ => 0 := funext fun a => by fin_cases a <;> rfl

/-- The three index maps over the grid: the first operand's window sits at the output's row block, the second's at
    the output's column block, and neither moves along the feature axis. -/
theorem block_indices : ∀ t : Fin cfg2.N,
    win2_0.index t (0 : Fin 2) = win2_2.index t (0 : Fin 2)
    ∧ win2_0.index t (1 : Fin 2) = 0
    ∧ win2_1.index t (0 : Fin 2) = win2_2.index t (1 : Fin 2)
    ∧ win2_1.index t (1 : Fin 2) = 0
    ∧ win2_2.index t (0 : Fin 2) ≤ 1
    ∧ win2_2.index t (1 : Fin 2) ≤ 1 :=
  (by decide +kernel : ∀ t : Fin grid2.N, _)

/-- Every block of the output is some point's. -/
theorem block_onto : ∀ (r s : Fin 2), ∃ t : Fin cfg2.N, win2_2.index t = ![r.val, s.val] :=
  (by decide +kernel : ∀ (r s : Fin 2), ∃ t : Fin grid2.N, win2_2.index t = ![r.val, s.val])

/-- A block of rows of each operand, multiplied by the body, is the spec's function at the array index `i` whose row is
    the first block's row `p` and whose column is the second block's row `q`. -/
theorem block_entry (X Y : SProj.Idx → EReal) (u v : Vec Ideal S512x256 .bf16)
    (i : SOut.Idx) (p q : Fin 512)
    (hu : ∀ k : Fin 256, u (ix2 p k) = X (ix2 ⟨(i 0).val, idx2_lt0 i⟩ k))
    (hv : ∀ k : Fin 256, v (ix2 q k) = Y (ix2 ⟨(i 1).val, idx2_lt1 i⟩ k)) :
    k2_pay1 (F := Ideal) u v (ix2 p q) = pairSum X Y i := by
  rw [Payload.pair_apply]
  unfold pairSum
  exact Finset.sum_congr rfl fun k _ => by rw [hu k, hv k]

/-- What point `t` writes back is block `t` of the spec's function of the arrays as the region finds them. -/
theorem flushed_eq (c : Dev nD) (t : Fin cfg2.N) :
    (dat2 V c).flushed 2 t
      = ((cfg2.win 2).blk t).view.read (Elt Ideal) (pairSum (V c main_v0) (V c main_v1)) := by
  show (cfg2.win 2).cut (grid2.coords t) ((dat2 V c).after 2 t) = _
  rw [after2_2]
  unfold out2_2
  rw [View.canon_unit_zero origin]
  simp only [View.ld_unit_zero (S := S512x256) origin]
  obtain ⟨e0, e1, e2, e3, e4, e5⟩ := block_indices t
  funext j
  obtain ⟨p, q, rfl⟩ : ∃ (p : Fin 512) (q : Fin 512), j = ix2 p q := ⟨j 0, j 1, eq_ix2 j⟩
  refine block_entry (V c main_v0) (V c main_v1) (iblk2 V c 0 t) (iblk2 V c 1 t)
    (((cfg2.win 2).blk t).view.emb (ix2 p q)) p q (fun k => ?_) (fun k => ?_)
  · show V c main_v0 (((cfg2.win 0).blk t).view.emb (ix2 p k)) = V c main_v0 _
    refine congrArg (V c main_v0) (funext fun a => Fin.ext ?_)
    match a with
    | ⟨0, _⟩ => show win2_0.index t (0 : Fin 2) * 512 + 1 * p.val = win2_2.index t (0 : Fin 2) * 512 + 1 * p.val; omega
    | ⟨1, _⟩ => show win2_0.index t (1 : Fin 2) * 256 + 1 * k.val = k.val; omega
  · show V c main_v1 (((cfg2.win 1).blk t).view.emb (ix2 q k)) = V c main_v1 _
    refine congrArg (V c main_v1) (funext fun a => Fin.ext ?_)
    match a with
    | ⟨0, _⟩ => show win2_1.index t (0 : Fin 2) * 512 + 1 * q.val = win2_2.index t (1 : Fin 2) * 512 + 1 * q.val; omega
    | ⟨1, _⟩ => show win2_1.index t (1 : Fin 2) * 256 + 1 * k.val = k.val; omega

/-- An index of the output array is in point `t`'s block iff each coordinate is in the block's range on its axis. -/
theorem mem_block (t : Fin cfg2.N) (i : S1024x1024.Idx) :
    i ∈ ((cfg2.win 2).blk t).view.set ↔ ∀ a : Fin 2, win2_2.index t a * S512x512.size a ≤ (i a).val ∧ (i a).val < win2_2.index t a * S512x512.size a + S512x512.size a := by
  show i ∈ ((View.whole main_v2).slice (win2_2.rect t)).set ↔ _
  rw [View.set_slice_whole, Rect.mem_set_unit]
  exact Iff.rfl

/-- The blocks tile the output: entry (r, s) lies in the block of the point at block (r / 512, s / 512). -/
theorem covered (i : S1024x1024.Idx) :
    ∃ t : Fin cfg2.N, (cfg2.win 2).flush t = true ∧ i ∈ ((cfg2.win 2).blk t).view.set := by
  have hi0 : (i 0).val < 1024 := (i 0).isLt
  have hi1 : (i 1).val < 1024 := (i 1).isLt
  obtain ⟨t, ht⟩ := block_onto ⟨(i 0).val / 512, by omega⟩ ⟨(i 1).val / 512, by omega⟩
  have q0 : win2_2.index t (0 : Fin 2) = (i 0).val / 512 := congrFun ht 0
  have q1 : win2_2.index t (1 : Fin 2) = (i 1).val / 512 := congrFun ht 1
  refine ⟨t, flush2_2 t, ?_⟩
  rw [mem_block]
  intro a
  match a with
  | ⟨0, _⟩ => show win2_2.index t (0 : Fin 2) * 512 ≤ (i 0).val ∧ (i 0).val < win2_2.index t (0 : Fin 2) * 512 + 512; omega
  | ⟨1, _⟩ => show win2_2.index t (1 : Fin 2) * 512 ≤ (i 1).val ∧ (i 1).val < win2_2.index t (1 : Fin 2) * 512 + 512; omega

/-- The output array after the region. -/
theorem final (c : Dev nD) : (dat2 V c).arrAt 2 cfg2.N = pairSum (V c main_v0) (V c main_v1) :=
  (dat2 V c).arrAt_eq_of_cover 2 _ (fun t _ => flushed_eq V c t) covered

end Cert.KernelIdeal.Region2

end
-- ==== Proof.KernelValue.lean ====
/-
  The kernel's program as a whole, read as a value: the three regions composed.

  Region 0 leaves the positive parts of a's projections in its output array; nothing later writes that array, and
  region 1 reads neither it nor anything region 0 wrote but the bank, which region 0 only read. Region 1 leaves the
  indicator of b's non-positive projections in its own output array. Region 2 reads those two arrays and leaves their
  pairwise sums over the features — the spec's result of the three argument arrays — in the program's result array.
-/
import proofs.«118252_j78941498900584_1_alg».proof.Proof.RunMain
import proofs.«118252_j78941498900584_1_alg».proof.Proof.Region0
import proofs.«118252_j78941498900584_1_alg».proof.Proof.Region1
import proofs.«118252_j78941498900584_1_alg».proof.Proof.Region2

set_option maxRecDepth 16384

noncomputable section

namespace Cert.KernelIdeal.Whole

open Idealize.ShloMosaic Idealize.ShloMosaic.TcCoe Idealize.SL.Sem
open Idealize.ShloMosaic.Pipeline (Dat Cfg Window)
open Cert.KernelIdeal Cert.KernelIdeal.Gen Cert.FeatureDiff

variable (m : (ℓ : Loc nD τ sig) → Buf (Elt Ideal) ℓ) (ρ : Dev nD → PrngReg)

/-- Region 1 finds `b` as launched: region 0 does not touch it. -/
theorem entry1_b (c : Dev nD) : V1 m ρ c main_arg1 = m ((c : Thread nD τ).loc main_arg1) :=
  W1_of_ne m ρ c main_arg1 (by decide)

/-- Region 1 finds the bank as launched: region 0 only read it. -/
theorem entry1_bank (c : Dev nD) : V1 m ρ c main_arg2 = m ((c : Thread nD τ).loc main_arg2) :=
  (W1_arr m ρ c 1).trans (((dat0 (V0 m ρ) c).arrAt_in 1 rfl _).trans (A_eq0 (V0 m ρ) c 1))

/-- After region 0 its output array holds the positive parts of a's projections. -/
theorem exit0_pos (c : Dev nD) :
    V1 m ρ c main_v0 = posScores (m ((c : Thread nD τ).loc main_arg0)) (m ((c : Thread nD τ).loc main_arg2)) :=
  (W1_arr m ρ c 2).trans (Region0.final (V0 m ρ) c)

/-- Region 2 finds that array as region 0 left it: region 1 does not touch it. -/
theorem entry2_pos (c : Dev nD) :
    V2 m ρ c main_v0 = posScores (m ((c : Thread nD τ).loc main_arg0)) (m ((c : Thread nD τ).loc main_arg2)) :=
  (W2_of_ne m ρ c main_v0 (by decide)).trans (exit0_pos m ρ c)

/-- After region 1 its output array holds the indicator of b's non-positive projections. -/
theorem entry2_mask (c : Dev nD) :
    V2 m ρ c main_v1 = nonposMask (m ((c : Thread nD τ).loc main_arg1)) (m ((c : Thread nD τ).loc main_arg2)) := by
  refine (W2_arr m ρ c 2).trans ((Region1.final (V1 m ρ) c).trans ?_)
  rw [entry1_b, entry1_bank]

/-- After region 2 the result array holds the spec's result of the three argument arrays. -/
theorem exit2_result (c : Dev nD) :
    W3 m ρ c (Proc.devRef .tc main_v2)
      = result (m ((c : Thread nD τ).loc main_arg0)) (m ((c : Thread nD τ).loc main_arg1)) (m ((c : Thread nD τ).loc main_arg2)) := by
  refine (W3_arr m ρ c 2).trans ((Region2.final (V2 m ρ) c).trans ?_)
  rw [entry2_pos, entry2_mask]
  rfl

/-- The program's run: every weakly fair execution terminates with the result array at the spec's result of the
    launch contents of the argument arrays, and the argument arrays unchanged. -/
theorem run : θ_run defs (onTc (τ := τ) (main (F := Ideal))) ⟨m, fun _ => 0, ρ⟩ fun r => ∀ c : Dev nD,
      r.2.mem ((c.tc : Thread nD τ).loc main_v2)
        = result (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨(h c).1.trans (exit2_result m ρ c), (h c).2⟩) (GenP.run_main m ρ)

end Cert.KernelIdeal.Whole

end
-- ==== Proof.RefValue.lean ====
/-
  The reference, read one operation at a time, computes the spec's function.

  Its two `dot_general`s against the transposed bank are the projections s(a), s(b); the broadcasts lay s(a)[i, k] and
  s(b)[j, k] out over (i, j, k); the mask is the conjunction of the bits [s(a)[i,k] > 0] and [s(b)[j,k] ≤ 0] converted to
  a float as an unsigned integer; and the sum over k of s(a)[i,k] · mask starts from zero. Summand by summand that is
  the kernel's max (s(a)[i,k]) 0 · [s(b)[j,k] ≤ 0] (`weight_eq`).
-/
import proofs.«118252_j78941498900584_1_alg».proof.Proof.Gen.ReferenceIdeal.Read
import proofs.«118252_j78941498900584_1_alg».proof.Proof.Spec

noncomputable section

namespace Cert.ReferenceIdeal.RefValue

open Idealize.ShloMosaic Idealize.ShloMosaic.ValueIdx
open Cert.ReferenceIdeal Cert.ReferenceIdeal.Gen Cert.ReferenceIdeal.Read Cert.FeatureDiff

/-- The first `dot_general` (rows of `a` against the transposed bank) at an index is the projection there. -/
theorem proj_a (a : (⟨S1024x512, .f32⟩ : BufTy).Contents (Elt Ideal)) (f : (⟨S256x512, .f32⟩ : BufTy).Contents (Elt Ideal))
    (i : S1024x256.Idx) :
    val_main_v1 (F := Ideal) a f i = score a f ⟨(i 0).val, idx2_lt0 i⟩ ⟨(i 1).val, idx2_lt1 i⟩ := by
  rw [val_main_v1_apply]
  unfold score
  refine Finset.sum_congr rfl fun d _ => ?_
  rw [val_main_v0_apply]
  have e1 : lidx_main_v1 i d = ix2 ⟨(i 0).val, idx2_lt0 i⟩ d :=
    funext fun x => by match x with | ⟨0, _⟩ => rfl | ⟨1, _⟩ => rfl
  have e2 : idx_main_v0 (ridx_main_v1 i d) = ix2 ⟨(i 1).val, idx2_lt1 i⟩ d :=
    funext fun x => by match x with | ⟨0, _⟩ => rfl | ⟨1, _⟩ => rfl
  rw [e1, e2]

/-- The second `dot_general` (rows of `b`) likewise. -/
theorem proj_b (b : (⟨S1024x512, .f32⟩ : BufTy).Contents (Elt Ideal)) (f : (⟨S256x512, .f32⟩ : BufTy).Contents (Elt Ideal))
    (i : S1024x256.Idx) :
    val_main_v3 (F := Ideal) b f i = score b f ⟨(i 0).val, idx2_lt0 i⟩ ⟨(i 1).val, idx2_lt1 i⟩ := by
  rw [val_main_v3_apply]
  unfold score
  refine Finset.sum_congr rfl fun d _ => ?_
  rw [val_main_v2_apply]
  have e1 : lidx_main_v3 i d = ix2 ⟨(i 0).val, idx2_lt0 i⟩ d :=
    funext fun x => by match x with | ⟨0, _⟩ => rfl | ⟨1, _⟩ => rfl
  have e2 : idx_main_v2 (ridx_main_v3 i d) = ix2 ⟨(i 1).val, idx2_lt1 i⟩ d :=
    funext fun x => by match x with | ⟨0, _⟩ => rfl | ⟨1, _⟩ => rfl
  rw [e1, e2]

/-- The reference's result stage is the spec's result, index by index. -/
theorem result_eq (a b : (⟨S1024x512, .f32⟩ : BufTy).Contents (Elt Ideal)) (f : (⟨S256x512, .f32⟩ : BufTy).Contents (Elt Ideal)) :
    val_main_v16 (F := Ideal) a b f = result a b f := by
  funext i
  rw [val_main_v16_apply, val_main_cst_1_apply]
  unfold result pairSum
  refine (congrArg (· + _) Ideal.ofBits_zero_f32).trans ((zero_add _).trans ?_)
  refine Finset.sum_congr rfl fun k _ => ?_
  rw [val_main_v15_apply, val_main_v14_apply, val_main_v4_apply, val_main_v13_apply, val_main_v12_apply,
    val_main_v10_apply, val_main_v11_apply, val_main_v7_apply, val_main_v9_apply, val_main_v4_apply,
    val_main_v5_apply, val_main_v6_apply, val_main_v8_apply, val_main_cst_apply, val_main_cst_0_apply,
    proj_a, proj_b]
  show score a f ⟨(i 0).val, idx2_lt0 i⟩ k
      * (((IntOp.andi (Ideal.cmp .ogt (score a f ⟨(i 0).val, idx2_lt0 i⟩ k) (Ideal.ofBits .f32 0x00000000#32))
            (Ideal.cmp .ole (score b f ⟨(i 1).val, idx2_lt1 i⟩ k) (Ideal.ofBits .f32 0x00000000#32))).toNat : ℝ) : EReal)
    = max (score a f ⟨(i 0).val, idx2_lt0 i⟩ k) 0 * (if score b f ⟨(i 1).val, idx2_lt1 i⟩ k ≤ 0 then 1 else 0)
  rw [Ideal.ofBits_zero_f32]
  exact weight_eq _ _

end Cert.ReferenceIdeal.RefValue

end
-- ==== Proof.lean ====
/-
  The certificate of the feature-difference kernel against its reference, over the extended reals.

  Both programs take two row arrays a, b : [1024, 512] and a feature bank f : [256, 512], and with
  s(x)[r, k] = Σ_d x[r, d] · f[k, d] they compute

      out[i, j] = Σ_k  w(s(a)[i, k], s(b)[j, k]).

  The reference's weight is  w(s, t) = s · [s > 0 ∧ t ≤ 0]  (a three-axis mask, multiplied in and summed over k).
  The kernel factors the mask: one pipelined region stores max (s(a)) 0, a second stores the indicator [s(b) ≤ 0],
  a third multiplies the two [1024, 256] arrays row against row; its weight is  max s 0 · [t ≤ 0].  The two weights
  agree at every pair of extended reals (Proof/Spec.lean `weight_eq`): no finiteness of the inputs is used.

  Frames: the two kernel programs' are the generated ones; the reference's is its generated run with the result dropped.
  The idealization rewrote nothing, so `preserves` is trivial. The value claim puts the kernel's run (Proof/KernelValue.lean:
  the three regions' output arrays read as whole-array functions and composed) beside the reference's run read one
  operation at a time (Proof/RefValue.lean), both at the spec's `result` of the argument arrays.
-/
import proofs.«118252_j78941498900584_1_alg».proof.Defs
import proofs.«118252_j78941498900584_1_alg».proof.Proof.Gen.Kernel
import proofs.«118252_j78941498900584_1_alg».proof.Proof.Gen.Kernel.Frame
import proofs.«118252_j78941498900584_1_alg».proof.Proof.Gen.KernelIdeal
import proofs.«118252_j78941498900584_1_alg».proof.Proof.Gen.KernelIdeal.Frame
import proofs.«118252_j78941498900584_1_alg».proof.Proof.Gen.ReferenceIdeal
import proofs.«118252_j78941498900584_1_alg».proof.Proof.Gen.ReferenceIdeal.Run
import proofs.«118252_j78941498900584_1_alg».proof.Proof.Gen.ReferenceIdeal.Read
import proofs.«118252_j78941498900584_1_alg».proof.Proof.Gen.Pre_finite_inputs
import proofs.«118252_j78941498900584_1_alg».proof.Proof.KernelValue
import proofs.«118252_j78941498900584_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.Value.run (F := Ideal) m ρ)

/-- From memories that agree on the three arguments both programs end with the result array at the spec's `result` of
    the arguments: the kernel by its three regions composed, the reference by its operations read at an index. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  exact (Cert.ReferenceIdeal.Read.val_main_v16_eq _ _ _).trans (Cert.ReferenceIdeal.RefValue.result_eq _ _ _)

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, trivial, algebraic⟩

end Cert.Proof

end
